-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x1024 : Shape := ⟨3, ![32, 8, 1024]⟩
abbrev S100000x1024 : Shape := ⟨2, ![100000, 1024]⟩
abbrev S100000 : Shape := ⟨1, ![100000]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S100000x1024 : S_.BroadcastsInDim S100000x1024 (![] : Fin 0 → Fin S100000x1024.rank)
  reducesTo_S100000x1024_S_d0_1 : S100000x1024.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S32x8x1024 .f32) (main_arg1 : FVec F S100000x1024 .f32) (main_arg2 : FVec F S100000 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S100000x1024 .f32 := Host.absf main_arg1
  let main_cst_0 : FVec F S_ .f32 := constant S_ .f32 0x7F800000#32
  let main_v5 : FVec F S100000x1024 .f32 := broadcastInDim S100000x1024 ![] bcast_S_S100000x1024 main_cst_0
  let main_v6 : IVec S100000x1024 1 := cmpf .olt main_v4 main_v5
  let main_c_1 : IVec S_ 1 := constantI S_ 1 1#1
  let main_v7 : IVec S_ 1 := (fun x v => Host.reduce IntOp.andi x v reducesTo_S100000x1024_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S32x8x1024 : Shape := ⟨3, ![32, 8, 1024]⟩
abbrev S100000x1024 : Shape := ⟨2, ![100000, 1024]⟩
abbrev S100000 : Shape := ⟨1, ![100000]⟩
abbrev S256x1024 : Shape := ⟨2, ![256, 1024]⟩
abbrev S1x100000 : Shape := ⟨2, ![1, 100000]⟩
abbrev S256x100000 : Shape := ⟨2, ![256, 100000]⟩
abbrev S32x8x100000 : Shape := ⟨3, ![32, 8, 100000]⟩
abbrev S2048x1024 : Shape := ⟨2, ![2048, 1024]⟩
abbrev S1x2048 : Shape := ⟨2, ![1, 2048]⟩
abbrev S256x2048 : Shape := ⟨2, ![256, 2048]⟩

abbrev nBuf : Space → Nat
  | .hbm => 7
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S100000x1024, .f32⟩
  | .hbm, ⟨2, _⟩ => ⟨S100000, .f32⟩
  | .hbm, ⟨3, _⟩ => ⟨S256x1024, .f32⟩
  | .hbm, ⟨4, _⟩ => ⟨S1x100000, .f32⟩
  | .hbm, ⟨5, _⟩ => ⟨S256x100000, .f32⟩
  | .hbm, ⟨6, _⟩ => ⟨S32x8x100000, .f32⟩
  | .local _ .vmem, ⟨0, _⟩ => ⟨S256x1024, .f32⟩
  | .local _ .vmem, ⟨1, _⟩ => ⟨S2048x1024, .f32⟩
  | .local _ .vmem, ⟨2, _⟩ => ⟨S2048x1024, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x8x1024_S256x1024 : S32x8x1024.ShapeCasts S256x1024
  shapeCasts_S100000_S1x100000 : S100000.ShapeCasts S1x100000
  shapeCasts_S256x100000_S32x8x100000 : S256x100000.ShapeCasts S32x8x100000
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x1024.size a < S100000x1024.size a
  hwx0_1 : ∀ i : grid0.Coords, EltTy.bits .f32 = 32 ∨ (Rect.unit (s := S100000x1024) (fun a => cc0_transform_1 i a * S2048x1024.size a) (fun a => (Pipeline.Clip.of (cc0_transform_1 i a) (S2048x1024.size a) (S100000x1024.size a)).extent (S2048x1024.size a)) fun a => Pipeline.Clip.inb (Pipeline.Clip.ok_of (hstart0_1 i a))).WholeWords (EltTy.packing .f32)
  hwxs0_1 : ∀ i : grid0.Coords, EltTy.bits .f32 = 32 ∨ (Rect.unit (s := S2048x1024) (fun _ => 0) (fun a => (Pipeline.Clip.of (cc0_transform_1 i a) (S2048x1024.size a) (S100000x1024.size a)).extent (S2048x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x2048.size a < S256x100000.size a
  hwx0_3 : ∀ i : grid0.Coords, EltTy.bits .f32 = 32 ∨ (Rect.unit (s := S256x100000) (fun a => cc0_transform_3 i a * S256x2048.size a) (fun a => (Pipeline.Clip.of (cc0_transform_3 i a) (S256x2048.size a) (S256x100000.size a)).extent (S256x2048.size a)) fun a => Pipeline.Clip.inb (Pipeline.Clip.ok_of (hstart0_3 i a))).WholeWords (EltTy.packing .f32)
  hwxs0_3 : ∀ i : grid0.Coords, EltTy.bits .f32 = 32 ∨ (Rect.unit (s := S256x2048) (fun _ => 0) (fun a => (Pipeline.Clip.of (cc0_transform_3 i a) (S256x2048.size a) (S256x100000.size a)).extent (S256x2048.size a)) fun a => (Nat.zero_add _).trans_le (Pipeline.Clip.extent_le (Pipeline.Clip.ok_of (hstart0_3 i a)))).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_call0_v0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S2048x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v1) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v2) S256x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8x1024 : Shape := ⟨3, ![32, 8, 1024]⟩
abbrev S100000x1024 : Shape := ⟨2, ![100000, 1024]⟩
abbrev S100000 : Shape := ⟨1, ![100000]⟩
abbrev S32x8x100000 : Shape := ⟨3, ![32, 8, 100000]⟩
abbrev S1x1x100000 : Shape := ⟨3, ![1, 1, 100000]⟩

abbrev nBuf : Space → Nat
  | .hbm => 7
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S100000x1024, .f32⟩
  | .hbm, ⟨2, _⟩ => ⟨S100000, .f32⟩
  | .hbm, ⟨3, _⟩ => ⟨S32x8x100000, .f32⟩
  | .hbm, ⟨4, _⟩ => ⟨S1x1x100000, .f32⟩
  | .hbm, ⟨5, _⟩ => ⟨S32x8x100000, .f32⟩
  | .hbm, ⟨6, _⟩ => ⟨S32x8x100000, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S100000_S1x1x100000_2 : S100000.BroadcastsInDim S1x1x100000 (![2] : Fin 1 → Fin S1x1x100000.rank)
  bcast_S1x1x100000_S32x8x100000_0_1_2 : S1x1x100000.BroadcastsInDim S32x8x100000 (![0, 1, 2] : Fin 3 → Fin S32x8x100000.rank)
  dot_S32x8x1024_S100000x1024_S32x8x100000_2_1_01_0_n_n_wf : DotDims.WF S32x8x1024 S100000x1024 S32x8x100000 [2] [1] [0, 1] [0] [] []

variable [Facts₀]

def dot_S32x8x1024_S100000x1024_S32x8x100000_2_1_01_0_n_n : DotDims S32x8x1024 S100000x1024 S32x8x100000 where
  lhsContracting := [2]
  rhsContracting := [1]
  lhsNonContracting := [0, 1]
  rhsNonContracting := [0]
  lhsBatch := []
  rhsBatch := []
  wf := dot_S32x8x1024_S100000x1024_S32x8x100000_2_1_01_0_n_n_wf

class Facts : Prop extends Facts₀ where

variable [Facts]
-- ==== Proof.KernelBody.lean ====
/-
  The kernel body at one grid point, as a triple over its four staging buffers: it reads the resident
  activation block (256 x 1024), the streamed slab of weight rows (2048 x 1024) and the slab of bias
  entries (1 x 2048), and overwrites the output buffer (256 x 2048) with the one value it computes from
  those three — the product of the activations with the transposed slab, plus the bias row broadcast
  down the 256 rows. The three inputs are left as found; what the output buffer held before is read
  once and never used.
-/
import proofs.«136971_g35098472743185_cont_8to1_b_329_2_alg».proof.Proof.Gen.Kernel.Skeleton
import proofs.«136971_g35098472743185_cont_8to1_b_329_2_alg».proof.Proof.Gen.Kernel.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body on whole staging memrefs holding `x0`, `x1`, `x2` and anything: it runs to the continuation
    with the three inputs unchanged and the output buffer holding the body's one stored value. -/
theorem sound_kernel (c : Dev nD) (E : Set ℕ) (i : grid0.Coords)
    (arg1 : Memref sig .tc .vmem S256x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S256x2048 .f32) (harg4 : arg4.IsWhole)
    (x0 : Vec F S256x1024 .f32) (x1 : Vec F S2048x1024 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is through the whole-buffer rectangle, so it covers the buffer and leaves its payload;
  -- each load is through the whole-buffer rectangle of its own buffer, so it reads that buffer's contents
  have hz : (![0, 0] : Fin 2 → Nat) = fun _ => 0 := funext fun a => by fin_cases a <;> rfl
  refine (View.read_writes_eq_canon _ _ _ ?_).trans ?_
  · intro y
    exact ⟨_, List.mem_singleton_self _,
      View.mem_set_unit_zero (S := S256x2048) hz inb_S256x2048_S256x2048_0_0 y⟩
  · rw [View.canon_unit_zero hz]
    simp only [View.readAt_eq_ld, View.ld_unit_zero (S := S256x1024) hz, View.ld_unit_zero (S := S2048x1024) hz,
      View.ld_unit_zero (S := S1x2048) hz]

end Cert.Kernel.Hand

end
-- ==== Proof.KernelFrame.lean ====
/-
  The kernel's frame at the word level: it runs to the end, faults nowhere, and leaves its three
  arguments unchanged. Nothing is claimed of what it writes. At the word level the matrix unit's product
  is a function of its whole operands that nothing opens, so the output block at the last grid point
  depends on the 352 slab rows past the end of the weights, which the fetch fills with values nothing
  names: the output buffer's contents cannot be named, and need not be — the claim reads no output. The
  proof data therefore says nothing of the output window (the body is handed its buffer at any contents
  and hands it back at any contents), names the activation block exactly and each slab on its part
  inside the array, and the run's post says of the output array only that it holds some contents. The
  arguments: the weights are an input window's array, never written; the activations and the bias are
  read only by the reshapes before the region, and the reshape after it writes the result buffer alone.
-/
import proofs.«136971_g35098472743185_cont_8to1_b_329_2_alg».proof.Proof.KernelBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window nothing is said of: the output's (window 3). -/
def forgets : Fin 4 → Bool := fun w => w.val == 3

/-- The weight slab at point `t` on the rows inside the array, the zero word past them. -/
def wslab (c : Dev nD) (t : Fin cfg0.N) : Vec F S2048x1024 .f32 :=
  win0_1.fill (grid0.coords t) (fun _ => Scalar.ofBits .f32 0#32) (iblk m c 1 t)

/-- The bias slab at point `t` on the entries inside the array, the zero word past them. -/
def bslab (c : Dev nD) (t : Fin cfg0.N) : Vec F S1x2048 .f32 :=
  win0_2.fill (grid0.coords t) (fun _ => Scalar.ofBits .f32 0#32) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wslab m c t
    | ⟨2, _⟩ => bslab m c t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wslab m c t := by dsimp only [dats]
theorem after_2 (c : Dev nD) (t : Fin cfg0.N) : (dats m 0 c).after 2 t = bslab m c t := by dsimp only [dats]

/-- The activation buffer holds the activation block at every point, fetched there or not. -/
theorem before_0 (c : Dev nD) (t : Fin cfg0.N) (d) : (dats m 0 c).before 0 t d = iblk m c 0 t :=
  before0_0_of m (dats m 0 c) (A_eq m c 0) (after_0 m c) t d

/-- The weight buffer, fetched at every point, holds the slab's rows inside the array and `d` past them. -/
theorem before_1 (c : Dev nD) (t : Fin cfg0.N) (d) :
    (dats m 0 c).before 1 t d = win0_1.fill (grid0.coords t) d (iblk m c 1 t) := by
  unfold Dat.before
  rw [if_pos (fetch0_1 t)]
  unfold Dat.fetched Dat.blockOf iblk
  rw [A_eq m c 1]
  try rfl

/-- The bias buffer likewise. -/
theorem before_2 (c : Dev nD) (t : Fin cfg0.N) (d) :
    (dats m 0 c).before 2 t d = win0_2.fill (grid0.coords t) d (iblk m c 2 t) := by
  unfold Dat.before
  rw [if_pos (fetch0_2 t)]
  unfold Dat.fetched Dat.blockOf iblk
  rw [A_eq m c 2]
  try rfl

set_option maxHeartbeats 1600000 in
/-- The body at one point, the four windows written out. It finds the activation block, the two slabs
    (each the array's part on the rows or entries inside it, anything past them) and the output buffer
    at any contents; it leaves the three inputs as found and the output buffer at some contents. The
    slabs are handed back stated on their part inside the array only, which is what they were found
    holding there. -/
private theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ X, owns (c : Thread nD τ) (win0_3.stage (cfg0.slots t 3)) fullShare X))
      ⊢ wp frame (wpE (defs₀ (F := F)) Variants.none c none) Set.univ (bodyAt0 t) (fun _ =>
          iprop((dats m 0 c).Φ t.succ ∗ (dats m 0 c).owesAt () t.succ
            ∗ owns (c : Thread nD τ) (win0_0.stage (cfg0.slots t 0)) fullShare ((dats m 0 c).after 0 t)
            ∗ (∃ d, owns (c : Thread nD τ) (win0_1.stage (cfg0.slots t 1)) fullShare
                (win0_1.fill (grid0.coords t) d (win0_1.cut (grid0.coords t) ((dats m 0 c).after 1 t))))
            ∗ (∃ d, owns (c : Thread nD τ) (win0_2.stage (cfg0.slots t 2)) fullShare
                (win0_2.fill (grid0.coords t) d (win0_2.cut (grid0.coords t) ((dats m 0 c).after 2 t))))
            ∗ (∃ X, owns (c : Thread nD τ) (win0_3.stage (cfg0.slots t 3)) fullShare X))) := by
  -- the invariant and the tallies are the same at every position
  rw [show (dats m 0 c).Φ t.succ = (dats m 0 c).Φ t.castSucc from rfl,
    show (dats m 0 c).owesAt () t.succ = (dats m 0 c).owesAt () t.castSucc from rfl]
  -- what the slabs are handed back at, on their part inside the array: the array's rows / entries there
  rw [after_0, after_1, after_2]
  unfold wslab bslab
  rw [Window.cut_fill, Window.cut_fill]
  unfold bodyAt0
  iintro ⟨HΦ, Ho, ⟨%d0, H0⟩, ⟨%d1, H1⟩, ⟨%d2, H2⟩, ⟨%X3, H3⟩⟩
  rw [before_0 m c t d0, before_1 m c t d1, before_2 m c t d2]
  iapply (sound_kernel (F := F) c Set.univ (grid0.coords t) _ _ _ _ _ _ _ _ (iblk m c 0 t)
    (win0_1.fill (grid0.coords t) d1 (iblk m c 1 t)) (win0_2.fill (grid0.coords t) d2 (iblk m c 2 t)) _)
  isplitl [H0]
  · iexact H0
  isplitl [H1]
  · iexact H1
  isplitl [H2]
  · iexact H2
  isplitl [H3]
  · iexists X3; iexact H3
  iintro ⟨H0, H1, H2, H3⟩
  isplitl [HΦ]
  · iexact HΦ
  isplitl [Ho]
  · iexact Ho
  isplitl [H0]
  · iexact H0
  isplitl [H1]
  · iexists d1; iexact H1
  isplitl [H2]
  · iexists d2; iexact H2
  · iexists _; iexact H3

/-- The body obligation, the output window forgotten. -/
theorem body_obligation (c : Dev nD) :
    BodyObligationLoose (dats (F := F) m 0 c) (defs₀ (F := F)) Variants.none () Set.univ forgets := by
  intro t
  rw [bigSep_W0, bigSep_W0]
  exact sound_body m c t

set_option backward.isDefEq.respectTransparency.types false in
/-- The run: every array of the pipeline ends at some contents the relational data allow (an input array
    at its entry contents), and every other unscoped buffer but the result at its region-entry contents. -/
theorem run_main : θ_run defs (onTc (τ := τ) (main (F := F))) (s₀ m ρ)
    (Pipeline.RDat.FramePostR (cfgs 0) (fun c => (dats m 0 c).toRForget forgets) {main_v0} (V m)) :=
  Pipeline.RDat.θ_run_frame_around_T cfgs (0 : Fin 1) launch0 defs₀ Variants.none (fun c => (dats m 0 c).toRForget forgets) {main_v0} m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := by
      -- the one operation after the region is the reshape into the result buffer, its only write
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      exact Finset.mem_singleton.mpr (Proc.devRef_injective _ hb))
    (hmain := hmain m Variants.none) (hA := A_eq m) (hΦ := fun _ _ => rfl)

/-- The kernel runs to the end, faults nowhere and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  refine ⟨?_, ?_, ?_⟩
  · -- the activations: no window's array and not the result buffer, so as the region found them: as launched
    exact ((h c).2 main_arg0 (Finset.mem_sdiff.mpr ⟨Pipeline.mem_restRefs_of main_arg0 (by decide) (by decide),
      fun hmem => absurd (Finset.mem_singleton.mp hmem) (by decide)⟩)).trans (V_main_arg0 m c)
  · -- the weights: an input window's array, at its entry contents: as launched
    exact (Pipeline.RDat.FramePostR.arr_in h c 1 rfl).trans ((A_eq m c 1).trans (V_main_arg1 m c))
  · -- the bias: as the activations
    exact ((h c).2 main_arg2 (Finset.mem_sdiff.mpr ⟨Pipeline.mem_restRefs_of main_arg2 (by decide) (by decide),
      fun hmem => absurd (Finset.mem_singleton.mp hmem) (by decide)⟩)).trans (V_main_arg2 m c)

end Cert.Kernel.Hand

end
-- ==== Proof.KernelIdealBody.lean ====
/-
  The kernel body at one grid point, as a triple over its four staging buffers: it reads the resident
  activation block (256 x 1024), the streamed slab of weight rows (2048 x 1024) and the slab of bias
  entries (1 x 2048), and overwrites the output buffer (256 x 2048) with the one value it computes from
  those three — the product of the activations with the transposed slab, plus the bias row broadcast
  down the 256 rows. The three inputs are left as found; what the output buffer held before is read
  once and never used.
-/
import proofs.«136971_g35098472743185_cont_8to1_b_329_2_alg».proof.Proof.Gen.KernelIdeal.Skeleton
import proofs.«136971_g35098472743185_cont_8to1_b_329_2_alg».proof.Proof.Gen.KernelIdeal.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The body on whole staging memrefs holding `x0`, `x1`, `x2` and anything: it runs to the continuation
    with the three inputs unchanged and the output buffer holding the body's one stored value. -/
theorem sound_kernel (c : Dev nD) (E : Set ℕ) (i : grid0.Coords)
    (arg1 : Memref sig .tc .vmem S256x1024 .f32) (harg1 : arg1.IsWhole)
    (arg2 : Memref sig .tc .vmem S2048x1024 .f32) (harg2 : arg2.IsWhole)
    (arg3 : Memref sig .tc .vmem S1x2048 .f32) (harg3 : arg3.IsWhole)
    (arg4 : Memref sig .tc .vmem S256x2048 .f32) (harg4 : arg4.IsWhole)
    (x0 : Vec F S256x1024 .f32) (x1 : Vec F S2048x1024 .f32) (x2 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store is through the whole-buffer rectangle, so it covers the buffer and leaves its payload;
  -- each load is through the whole-buffer rectangle of its own buffer, so it reads that buffer's contents
  have hz : (![0, 0] : Fin 2 → Nat) = fun _ => 0 := funext fun a => by fin_cases a <;> rfl
  refine (View.read_writes_eq_canon _ _ _ ?_).trans ?_
  · intro y
    exact ⟨_, List.mem_singleton_self _,
      View.mem_set_unit_zero (S := S256x2048) hz inb_S256x2048_S256x2048_0_0 y⟩
  · rw [View.canon_unit_zero hz]
    simp only [View.readAt_eq_ld, View.ld_unit_zero (S := S256x1024) hz, View.ld_unit_zero (S := S2048x1024) hz,
      View.ld_unit_zero (S := S1x2048) hz]

end Cert.KernelIdeal.Hand

end
-- ==== Proof.KernelIdealPay.lean ====
/-
  The body's one stored value read at an index, over the extended reals. Entry (r, j) of the 256 x 2048
  block the body stores is

      (Σ_d xblk[r, d] · wslab[j, d]) + bslab[0, j]

  — the matrix unit's product into a zero accumulator is that sum (the two narrowings to bf16 are the
  identity on extended reals, the product contracts the second axis of both operands), the bias row is
  broadcast down the rows. So column j of the block depends on row j of the weight slab and entry j of the
  bias slab only: two weight slabs that agree on their first n rows, and two bias slabs that agree on their
  first n entries, give blocks that agree on their first n columns.
-/
import proofs.«136971_g35098472743185_cont_8to1_b_329_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen Idealize.ShloMosaic

/-- The product's left operand is read at the output's row and the contracted feature. -/
theorem lhs_axis0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem lhs_axis1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
/-- Its right operand is read at the output's column (a slab row) and the contracted feature. -/
theorem rhs_axis0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem rhs_axis1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- The matrix unit's product into a zero accumulator, at row `r` and column `j`: the sum over the 1024
    features of left operand (r, d) times right operand (j, d) — both operands contract their second axis. -/
theorem prod_apply (l : FVec Ideal S256x1024 .bf16) (w : FVec Ideal S2048x1024 .bf16) (r : Fin 256) (j : Fin 2048) :
    matmul dot_S256x1024_S2048x1024_S256x2048_1_1_0_0_n_n none l w (constant S256x2048 .f32 0x00000000#32) (ValueIdx.ix2 r j)
      = ∑ k : Fin 1024, l (ValueIdx.ix2 r k) * w (ValueIdx.ix2 j k) := by
  show FloatOps.matmul dot_S256x1024_S2048x1024_S256x2048_1_1_0_0_n_n none l w (constant S256x2048 .f32 0x00000000#32) (ValueIdx.ix2 r j) = _
  rw [Ideal.matmul_constant_zero_apply, ← Equiv.sum_comp (ValueIdx.contrEquiv1 dot_S256x1024_S2048x1024_S256x2048_1_1_0_0_n_n 1024 rfl rfl).symm]
  refine Finset.sum_congr rfl fun k _ => ?_
  have hk := ValueIdx.contrEquiv1_symm_val dot_S256x1024_S2048x1024_S256x2048_1_1_0_0_n_n 1024 rfl rfl k
  have el : dot_S256x1024_S2048x1024_S256x2048_1_1_0_0_n_n.lhsIdx (ValueIdx.ix2 r j) ((ValueIdx.contrEquiv1 dot_S256x1024_S2048x1024_S256x2048_1_1_0_0_n_n 1024 rfl rfl).symm k) = ValueIdx.ix2 r k := funext fun a => Fin.ext (by
    match a with
    | ⟨0, _⟩ => exact lhs_axis0 _ _
    | ⟨1, _⟩ => exact (lhs_axis1 _ _).trans hk)
  have er : dot_S256x1024_S2048x1024_S256x2048_1_1_0_0_n_n.rhsIdx (ValueIdx.ix2 r j) ((ValueIdx.contrEquiv1 dot_S256x1024_S2048x1024_S256x2048_1_1_0_0_n_n 1024 rfl rfl).symm k) = ValueIdx.ix2 j k := funext fun a => Fin.ext (by
    match a with
    | ⟨0, _⟩ => exact rhs_axis0 _ _
    | ⟨1, _⟩ => exact (rhs_axis1 _ _).trans hk)
  rw [el, er]

/-- The bias row broadcast down the 256 rows, read at (r, j), is bias entry (0, j). -/
theorem bias_apply (x2 : Vec Ideal S1x2048 .f32) (r : Fin 256) (j : Fin 2048) :
    broadcastTo S256x2048 (shapeCast S1x2048 x2 shapeCasts_S1x2048_S1x2048) broadcasts_S1x2048_S256x2048 (ValueIdx.ix2 r j)
      = x2 (ValueIdx.ix2 (0 : Fin 1) j) := by
  rw [shapeCast_self]
  exact broadcastTo_apply x2 broadcasts_S1x2048_S256x2048 (ValueIdx.ix2 r j) (ValueIdx.ix2 (0 : Fin 1) j) (fun a => match a with
    | ⟨0, _⟩ => by show 0 = if (1 : Nat) = 1 then 0 else r.val; rw [if_pos rfl]
    | ⟨1, _⟩ => by show j.val = if (2048 : Nat) = 1 then 0 else j.val; rw [if_neg (by decide)])

/-- The stored block at row `r` and column `j`: the inner product of activation row `r` with slab row `j`,
    plus bias entry `j`. -/
theorem pay_apply (x0 : Vec Ideal S256x1024 .f32) (x1 : Vec Ideal S2048x1024 .f32) (x2 : Vec Ideal S1x2048 .f32)
    (r : Fin 256) (j : Fin 2048) :
    k0_pay1 (F := Ideal) x0 x1 x2 (ValueIdx.ix2 r j)
      = (∑ k : Fin 1024, x0 (ValueIdx.ix2 r k) * x1 (ValueIdx.ix2 j k)) + x2 (ValueIdx.ix2 (0 : Fin 1) j) := by
  unfold k0_pay1
  rw [ValueIdx.addf_apply, prod_apply, bias_apply, shapeCast_self]
  rfl

/-- Column `j` of the stored block is determined by slab row `j` and bias entry `j`. -/
theorem pay_congr_col (x0 : Vec Ideal S256x1024 .f32) (x1 x1' : Vec Ideal S2048x1024 .f32) (x2 x2' : Vec Ideal S1x2048 .f32)
    (r : Fin 256) (j : Fin 2048) (h1 : ∀ k : Fin 1024, x1 (ValueIdx.ix2 j k) = x1' (ValueIdx.ix2 j k))
    (h2 : x2 (ValueIdx.ix2 (0 : Fin 1) j) = x2' (ValueIdx.ix2 (0 : Fin 1) j)) :
    k0_pay1 (F := Ideal) x0 x1 x2 (ValueIdx.ix2 r j) = k0_pay1 (F := Ideal) x0 x1' x2' (ValueIdx.ix2 r j) := by
  rw [pay_apply, pay_apply, h2]
  exact congrArg (· + _) (Finset.sum_congr rfl fun k _ => by rw [h1 k])

end Cert.KernelIdeal.Hand

end
-- ==== Proof.KernelIdealFrame.lean ====
/-
  The idealized kernel's run. The grid has 49 points; point t stages the whole activation block (fetched
  once, at the first point, and found in place afterwards), rows 2048·t … 2048·t + 2047 of the weights
  and entries 2048·t … 2048·t + 2047 of the bias, and writes back columns 2048·t … of the output. At the
  last point, t = 48, only the first 1696 of those rows, entries and columns exist: the fetches fill the
  rest of the two staging buffers with values nothing names, and the write-back moves only the first 1696
  columns of the output buffer.

  The proof data therefore names each slab on its part inside the array only (the rest filled with zero,
  a choice nothing reads), and the body obligation is stated on those parts: the columns of the output
  block that the write-back moves depend on the slab rows and bias entries inside the array alone
  (column j on row j and entry j), so whatever the fetch left past the end does not reach them.
-/
import proofs.«136971_g35098472743185_cont_8to1_b_329_2_alg».proof.Proof.KernelIdealBody
import proofs.«136971_g35098472743185_cont_8to1_b_329_2_alg».proof.Proof.KernelIdealPay
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The activation block at point `t`: the whole reshaped activation array, at every point. -/
abbrev xblk (c : Dev nD) (t : Fin cfg0.N) : Vec Ideal S256x1024 .f32 := iblk m c 0 t

/-- The weight slab at point `t`, on the rows inside the array; zero on the rows past its end. -/
def wslab (c : Dev nD) (t : Fin cfg0.N) : Vec Ideal S2048x1024 .f32 :=
  win0_1.fill (grid0.coords t) (fun _ => (0 : EReal)) (iblk m c 1 t)

/-- The bias slab at point `t`, on the entries inside the array; zero past its end. -/
def bslab (c : Dev nD) (t : Fin cfg0.N) : Vec Ideal S1x2048 .f32 :=
  win0_2.fill (grid0.coords t) (fun _ => (0 : EReal)) (iblk m c 2 t)

/-- The output block at point `t`: the body's stored value of the three. -/
def oblk (c : Dev nD) (t : Fin cfg0.N) : Vec Ideal S256x2048 .f32 :=
  k0_pay1 (F := Ideal) (xblk m c t) (wslab m c t) (bslab m c t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => xblk m c t
    | ⟨1, _⟩ => wslab m c t
    | ⟨2, _⟩ => bslab m c t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xblk m c t := by dsimp only [dats]
theorem after_1 (c : Dev nD) (t : Fin cfg0.N) : (dats m 0 c).after 1 t = wslab m c t := by dsimp only [dats]
theorem after_2 (c : Dev nD) (t : Fin cfg0.N) : (dats m 0 c).after 2 t = bslab m c t := by dsimp only [dats]
theorem after_3 (c : Dev nD) (t : Fin cfg0.N) : (dats m 0 c).after 3 t = oblk m c t := by dsimp only [dats]

/-- The activation buffer holds the activation block at every point, fetched there or not. -/
theorem before_0 (c : Dev nD) (t : Fin cfg0.N) (d) : (dats m 0 c).before 0 t d = xblk m c t :=
  before0_0_of m (dats m 0 c) (A_eq m c 0) (after_0 m c) t d

/-- The weight buffer, fetched at every point, holds the slab's rows inside the array and `d` past them. -/
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq m c 1]
  try rfl

/-- The bias buffer likewise. -/
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq m c 2]
  try rfl

/-- The output buffer, written back at every point, holds anything when the body starts. -/
theorem before_3 (c : Dev nD) (t : Fin cfg0.N) (d) : (dats m 0 c).before 3 t d = d := by
  -- an output window: fresh at the first point, and after the previous point's write-back at every other
  refine (dats m 0 c).before_out_reset 3 rfl t ?_ d
  by_cases h : t.val = 0
  · exact .inl h
  · exact .inr ⟨h, flush0_3 _⟩

/-! ## The body obligation -/

/-- How many rows, entries and columns the transfers move, at every grid point: the output block's columns
    moved are as many as the weight slab's rows and the bias slab's entries moved (2048, at the last point
    1696); a slab row is moved whole (1024 entries) and the bias slab has its one row. -/
private theorem moved_extents : ∀ i : grid0.Coords,
    win0_3.xsize i (1 : Fin 2) = win0_1.xsize i (0 : Fin 2) ∧ win0_3.xsize i (1 : Fin 2) = win0_2.xsize i (1 : Fin 2)
      ∧ win0_1.xsize i (1 : Fin 2) = 1024 ∧ win0_2.xsize i (0 : Fin 2) = 1 := by
  decide +kernel

/-- Entry (r, j) of the stored block, at a column j the write-back moves, reads row j of the weight slab and
    entry j of the bias slab, both inside the part the fetches filled: what the slabs hold past it does not
    reach the entry. -/
private theorem pay_moved_col (i : grid0.Coords) (x0 : Vec Ideal S256x1024 .f32)
    (B1 : (win0_1.xblock i).Idx → Elt Ideal .f32) (B2 : (win0_2.xblock i).Idx → Elt Ideal .f32)
    (d1 e1 : Vec Ideal S2048x1024 .f32) (d2 e2 : Vec Ideal S1x2048 .f32) (y : (win0_3.xblock i).Idx) :
    k0_pay1 (F := Ideal) x0 (win0_1.fill i d1 B1) (win0_2.fill i d2 B2) (win0_3.xinj i y)
      = k0_pay1 (F := Ideal) x0 (win0_1.fill i e1 B1) (win0_2.fill i e2 B2) (win0_3.xinj i y) := by
  obtain ⟨h31, h32, h11, h20⟩ := moved_extents i
  -- the block index by its two coordinates, the column below the moved extent
  obtain ⟨r, j, e, hj⟩ : ∃ (r : Fin 256) (j : Fin 2048), win0_3.xinj i y = ValueIdx.ix2 r j
      ∧ j.val < win0_3.xsize i (1 : Fin 2) :=
    ⟨win0_3.xinj i y (0 : Fin 2), win0_3.xinj i y (1 : Fin 2), ValueIdx.eq_ix2 _, (y (1 : Fin 2)).isLt⟩
  rw [e]
  refine pay_congr_col x0 (win0_1.fill i d1 B1) (win0_1.fill i e1 B1) (win0_2.fill i d2 B2) (win0_2.fill i e2 B2) r j
    (fun k => ?_) ?_
  · -- row j of the weight slab: all 1024 of its entries are moved
    have hm : win0_1.moved i (ValueIdx.ix2 j k) = true :=
      (win0_1.moved_iff i (ValueIdx.ix2 j k)).mpr fun (a : Fin 2) =>
        match a with
        | ⟨0, _⟩ => lt_of_lt_of_eq hj h31
        | ⟨1, _⟩ => lt_of_lt_of_eq k.isLt h11.symm
    unfold Window.fill
    rw [dif_pos hm, dif_pos hm]
  · -- entry j of the bias slab, in its one row
    have hm : win0_2.moved i (ValueIdx.ix2 (0 : Fin 1) j) = true :=
      (win0_2.moved_iff i (ValueIdx.ix2 (0 : Fin 1) j)).mpr fun (a : Fin 2) =>
        match a with
        | ⟨0, _⟩ => lt_of_lt_of_eq (Nat.zero_lt_one) h20.symm
        | ⟨1, _⟩ => lt_of_lt_of_eq hj h32
    unfold Window.fill
    rw [dif_pos hm, dif_pos hm]

/-- On the columns the write-back moves, the stored block does not depend on what fills the slabs past
    the array's end. -/
theorem cut_pay_fill (c : Dev nD) (t : Fin cfg0.N) (d1 : Vec Ideal S2048x1024 .f32) (d2 : Vec Ideal S1x2048 .f32) :
    win0_3.cut (grid0.coords t)
        (k0_pay1 (F := Ideal) (xblk m c t) (win0_1.fill (grid0.coords t) d1 (iblk m c 1 t)) (win0_2.fill (grid0.coords t) d2 (iblk m c 2 t)))
      = win0_3.cut (grid0.coords t) (oblk m c t) := by
  funext y
  show k0_pay1 (F := Ideal) (xblk m c t) (win0_1.fill (grid0.coords t) d1 (iblk m c 1 t))
        (win0_2.fill (grid0.coords t) d2 (iblk m c 2 t)) (win0_3.xinj (grid0.coords t) y)
      = oblk m c t (win0_3.xinj (grid0.coords t) y)
  unfold oblk wslab bslab
  exact pay_moved_col (grid0.coords t) (xblk m c t) (iblk m c 1 t) (iblk m c 2 t) d1 (fun _ => (0 : EReal)) d2
    (fun _ => (0 : EReal)) y

set_option maxHeartbeats 1600000 in
theorem body_obligation (c : Dev nD) : BodyObligationLoose (dats m 0 c) (defs₀ (F := Ideal)) Variants.none () Set.univ := by
  intro t
  rw [bigSep_W0, bigSep_W0]
  -- no point is idle; the activation window is stated exactly, the two slabs and the output block on the
  -- part their transfers move; the invariant and what the core owes are the same before and after the point
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1, before_2 m c t d2, before_3 m c t d3]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (xblk m c t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  -- the slabs as the fetches left them, cut back to the part inside the array, are the named slabs' parts
  -- there; the stored block's columns moved are the named block's
  have hw : win0_1.cut (grid0.coords t) (wslab m c t) = iblk m c 1 t :=
    win0_1.cut_fill (grid0.coords t) (fun _ => (0 : EReal)) (iblk m c 1 t)
  have hb : win0_2.cut (grid0.coords t) (bslab m c t) = iblk m c 2 t :=
    win0_2.cut_fill (grid0.coords t) (fun _ => (0 : EReal)) (iblk m c 2 t)
  have ho : win0_3.fill (grid0.coords t)
        (k0_pay1 (F := Ideal) (xblk m c t) (win0_1.fill (grid0.coords t) d1 (iblk m c 1 t)) (win0_2.fill (grid0.coords t) d2 (iblk m c 2 t)))
        (win0_3.cut (grid0.coords t) (oblk m c t))
      = k0_pay1 (F := Ideal) (xblk m c t) (win0_1.fill (grid0.coords t) d1 (iblk m c 1 t)) (win0_2.fill (grid0.coords t) d2 (iblk m c 2 t)) :=
    win0_3.fill_congr_cut (grid0.coords t) (cut_pay_fill m c t d1 d2)
  rw [after_0 m c t, after_1 m c t, after_2 m c t, after_3 m c t]
  isplitl [H0]; · iexact H0
  isplitl [H1]
  · iexists d1
    change _ ⊢ owns (c : Thread nD τ) (win0_1.stage (cfg0.slots t 1)) fullShare
      (win0_1.fill (grid0.coords t) d1 (win0_1.cut (grid0.coords t) (wslab m c t)))
    rw [hw]; try iexact H1
  isplitl [H2]
  · iexists d2
    change _ ⊢ owns (c : Thread nD τ) (win0_2.stage (cfg0.slots t 2)) fullShare
      (win0_2.fill (grid0.coords t) d2 (win0_2.cut (grid0.coords t) (bslab m c t)))
    rw [hb]; try iexact H2
  · -- the output buffer holds the stored block, which is itself filled with the named block's moved columns
    rw [← ho]
    iexists _
    iexact H3

/-! ## The run and the frame -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The idealized kernel runs to the end, faults nowhere and leaves its three arguments unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  The vocabulary head as one function of its three argument arrays, over the extended reals:

      logits[b, t, v] = (Σ_d x[b, t, d] · W[v, d]) + bias[v]

  with b < 32, t < 8, v < 100000 and the contraction over the 1024 features d. Both programs are shown to
  end with this array: the reference computes it in one contraction followed by a broadcast add, the kernel
  computes it in 49 column slabs of 2048 vocabulary rows each (the last slab reaching 352 rows past the
  end of the vocabulary, which the write-back cuts off). No law beyond reading each side at an index is
  needed: the order of a finite sum of extended reals does not matter here because both sides sum over the
  same index type in the same order.
-/
import Idealize.ShloMosaic.PureOps.Ideal
import Idealize.ShloMosaic.Lib.ValueIdx

noncomputable section

namespace Cert.Spec

open Idealize.ShloMosaic

/-- The activations' shape, [32, 8, 1024]. -/
abbrev Sx : Shape := ⟨3, ![32, 8, 1024]⟩
/-- The weight matrix's shape, [100000, 1024]: one row per vocabulary entry. -/
abbrev SW : Shape := ⟨2, ![100000, 1024]⟩
/-- The bias vector's shape, [100000]. -/
abbrev Sb : Shape := ⟨1, ![100000]⟩
/-- The result's shape, [32, 8, 100000]. -/
abbrev So : Shape := ⟨3, ![32, 8, 100000]⟩

/-- The logits: entry (b, t, v) is the inner product of activation row (b, t) with weight row v, plus
    bias entry v. -/
def logits (x : FVec Ideal Sx .f32) (W : FVec Ideal SW .f32) (bias : FVec Ideal Sb .f32) : FVec Ideal So .f32 :=
  fun i => (∑ k : Fin 1024, x (ValueIdx.ix3 (i 0) (i 1) k) * W (ValueIdx.ix2 (i 2) k)) + bias (ValueIdx.ix1 (i 2))

end Cert.Spec

end
-- ==== Proof.KernelIdealValue.lean ====
/-
  From the 49 written-back blocks to the result array. Block t of the 256 x 100000 output, on the columns
  inside the array, is the restriction of one whole-array function: entry (r, v) is the inner product of
  reshaped activation row r with weight row v, plus bias entry v — the block's column j at point t is the
  array's column 2048·t + j. The blocks' column ranges [2048·t, 2048·t + 2048), cut at 100000, cover
  every column (column v lies in block v / 2048), so the output array ends holding that function. The
  reshape after the region splits row r = 8·b + s back into (b, s), and the reshapes before it read
  activation (b, s, d) at row 8·b + s and bias entry v at (0, v): the result is the logits function of the
  three arguments.
-/
import proofs.«136971_g35098472743185_cont_8to1_b_329_2_alg».proof.Proof.KernelIdealFrame
import proofs.«136971_g35098472743185_cont_8to1_b_329_2_alg».proof.Proof.Spec
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The reshaped activations the region finds, as a 256 x 1024 array. -/
abbrev xarr (c : Dev nD) : Vec Ideal S256x1024 .f32 := V m c main_call0_v0
/-- The weights the region finds. -/
abbrev warr (c : Dev nD) : Vec Ideal S100000x1024 .f32 := V m c main_arg1
/-- The reshaped bias the region finds, as a 1 x 100000 array. -/
abbrev barr (c : Dev nD) : Vec Ideal S1x100000 .f32 := V m c main_call0_v1

/-- The output array as one function: entry (r, v) is activation row r against weight row v, plus bias v. -/
def out2 (c : Dev nD) : Vec Ideal S256x100000 .f32 := fun i =>
  (∑ k : Fin 1024, xarr m c (ValueIdx.ix2 (i 0) k) * warr m c (ValueIdx.ix2 (i 1) k)) + barr m c (ValueIdx.ix2 (0 : Fin 1) (i 1))

/-! ## The arguments, and the two arrays the host reshapes before the region -/

/-- The three arguments as launched, at their literal types. -/
private abbrev arg0 (c : Dev nD) : FVec Ideal S32x8x1024 .f32 := m ((c.tc : Thread nD τ).loc main_arg0)
private abbrev arg1 (c : Dev nD) : FVec Ideal S100000x1024 .f32 := m ((c.tc : Thread nD τ).loc main_arg1)
private abbrev arg2 (c : Dev nD) : FVec Ideal S100000 .f32 := m ((c.tc : Thread nD τ).loc main_arg2)

/-- The region finds the activations reshaped: the host reshape before it is a cast of shape. -/
private theorem xarr_eq (c : Dev nD) : (V m c main_call0_v0 : S256x1024.Idx → EReal)
    = shapeCast S256x1024 (m ((c.tc : Thread nD τ).loc main_arg0)) shapeCasts_S32x8x1024_S256x1024 := by
  show StableHlo.after hostOps0 (fun b => m (c, b)) (Proc.devRef .tc main_call0_v0) = _
  after_results
  rfl

/-- Likewise the bias, as one row. -/
private theorem barr_eq (c : Dev nD) : (V m c main_call0_v1 : S1x100000.Idx → EReal)
    = shapeCast S1x100000 (m ((c.tc : Thread nD τ).loc main_arg2)) shapeCasts_S100000_S1x100000 := by
  show StableHlo.after hostOps0 (fun b => m (c, b)) (Proc.devRef .tc main_call0_v1) = _
  after_results
  rfl

/-! ## The index maps and the cuts, over the grid -/

/-- The printed index maps at point `t`: the activation block is always block (0, 0); the weight slab is block
    (t, 0); the bias slab and the output block are block (0, t). -/
private theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The sizes of what each transfer moves at point `t`: on the long axis, 2048 cut at the array's end
    (100000 - 2048 t at the last point); everything on the other axis. -/
private theorem xsize_facts : ∀ t : Fin cfg0.N,
    win0_1.xsize (grid0.coords t) (0 : Fin 2) = min 2048 (100000 - 2048 * t.val)
    ∧ win0_1.xsize (grid0.coords t) (1 : Fin 2) = 1024
    ∧ win0_2.xsize (grid0.coords t) (0 : Fin 2) = 1
    ∧ win0_2.xsize (grid0.coords t) (1 : Fin 2) = min 2048 (100000 - 2048 * t.val)
    ∧ win0_3.xsize (grid0.coords t) (0 : Fin 2) = 256
    ∧ win0_3.xsize (grid0.coords t) (1 : Fin 2) = min 2048 (100000 - 2048 * t.val) :=
  (by decide +kernel : ∀ t : Fin grid0.N, _)

/-- A filled block read at an index the transfer moves is the fetched part there. -/
private theorem fill_of_moved {α : Type} (w : Pipeline.Window sig grid0) (i : grid0.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-! ## The three staged blocks, read where the arrays hold them -/

/-- The activation block is the whole reshaped activation array. -/
private theorem xblk_apply (c : Dev nD) (t : Fin cfg0.N) (r : Fin 256) (k : Fin 1024) :
    xblk m c t (ValueIdx.ix2 r k) = xarr m c (ValueIdx.ix2 r k) := by
  obtain ⟨e0, e1, -⟩ := idx_facts t
  show iblk m c 0 t (ValueIdx.ix2 r k) = _
  unfold iblk
  rw [View.read_apply]
  show V m c main_call0_v0 _ = V m c main_call0_v0 (ValueIdx.ix2 r k)
  congr 1
  funext a
  apply Fin.ext
  match a with
  | ⟨0, _⟩ => show win0_0.index t (0 : Fin 2) * 256 + 1 * r.val = r.val; rw [e0]; omega
  | ⟨1, _⟩ => show win0_0.index t (1 : Fin 2) * 1024 + 1 * k.val = k.val; rw [e1]; omega

/-- Row `y 0` of the fetched part of the weight slab at point `t` is row 2048·t + `y 0` of the weights. -/
private theorem iblk1_apply (c : Dev nD) (t : Fin cfg0.N) (y : (win0_1.xblock (grid0.coords t)).Idx) (i : S100000x1024.Idx)
    (h0 : (i 0).val = 2048 * t.val + (y 0).val) (h1 : (i 1).val = (y 1).val) :
    iblk m c 1 t y = warr m c i := by
  obtain ⟨-, -, e0, e1, -⟩ := idx_facts t
  unfold iblk
  rw [View.read_apply]
  show V m c main_arg1 _ = V m c main_arg1 i
  congr 1
  funext a
  apply Fin.ext
  match a with
  | ⟨0, _⟩ => show win0_1.index t (0 : Fin 2) * 2048 + 1 * (y 0).val = (i 0).val; rw [e0, h0]; omega
  | ⟨1, _⟩ => show win0_1.index t (1 : Fin 2) * 1024 + 1 * (y 1).val = (i 1).val; rw [e1, h1]; omega

/-- Entry `y 1` of the fetched part of the bias slab at point `t` is entry 2048·t + `y 1` of the bias. -/
private theorem iblk2_apply (c : Dev nD) (t : Fin cfg0.N) (y : (win0_2.xblock (grid0.coords t)).Idx) (i : S1x100000.Idx)
    (h1 : (i 1).val = 2048 * t.val + (y 1).val) :
    iblk m c 2 t y = barr m c i := by
  obtain ⟨-, -, -, -, e0, e1, -⟩ := idx_facts t
  obtain ⟨-, -, x0, -⟩ := xsize_facts t
  have hy0 : (y 0).val < win0_2.xsize (grid0.coords t) (0 : Fin 2) := (y 0).isLt
  have hi0 : (i 0).val < 1 := (i 0).isLt
  unfold iblk
  rw [View.read_apply]
  show V m c main_call0_v1 _ = V m c main_call0_v1 i
  congr 1
  funext a
  apply Fin.ext
  match a with
  | ⟨0, _⟩ => show win0_2.index t (0 : Fin 2) * 1 + 1 * (y 0).val = (i 0).val; rw [e0]; rw [x0] at hy0; omega
  | ⟨1, _⟩ => show win0_2.index t (1 : Fin 2) * 2048 + 1 * (y 1).val = (i 1).val; rw [e1, h1]; omega

/-- A row of the weight slab inside the array is the weights' row. -/
private theorem wslab_apply (c : Dev nD) (t : Fin cfg0.N) (j : Fin 2048) (k : Fin 1024) (hj : 2048 * t.val + j.val < 100000) :
    wslab m c t (ValueIdx.ix2 j k) = warr m c (ValueIdx.ix2 (⟨2048 * t.val + j.val, hj⟩ : Fin 100000) k) := by
  obtain ⟨x0, x1, -⟩ := xsize_facts t
  have hm : win0_1.moved (grid0.coords t) (ValueIdx.ix2 j k) = true := by
    rw [Pipeline.Window.moved_iff]
    intro a
    match a with
    | ⟨0, _⟩ => show j.val < win0_1.xsize (grid0.coords t) (0 : Fin 2); rw [x0]; omega
    | ⟨1, _⟩ => show k.val < win0_1.xsize (grid0.coords t) (1 : Fin 2); rw [x1]; exact k.isLt
  unfold wslab
  refine (fill_of_moved win0_1 (grid0.coords t) _ _ (ValueIdx.ix2 j k) hm).trans ?_
  exact iblk1_apply m c t _ _ rfl rfl

/-- An entry of the bias slab inside the array is the bias's entry. -/
private theorem bslab_apply (c : Dev nD) (t : Fin cfg0.N) (j : Fin 2048) (hj : 2048 * t.val + j.val < 100000) :
    bslab m c t (ValueIdx.ix2 (0 : Fin 1) j) = barr m c (ValueIdx.ix2 (0 : Fin 1) (⟨2048 * t.val + j.val, hj⟩ : Fin 100000)) := by
  obtain ⟨-, -, x0, x1, -⟩ := xsize_facts t
  have hm : win0_2.moved (grid0.coords t) (ValueIdx.ix2 (0 : Fin 1) j) = true := by
    rw [Pipeline.Window.moved_iff]
    intro a
    match a with
    | ⟨0, _⟩ => show (0 : Nat) < win0_2.xsize (grid0.coords t) (0 : Fin 2); rw [x0]; omega
    | ⟨1, _⟩ => show j.val < win0_2.xsize (grid0.coords t) (1 : Fin 2); rw [x1]; omega
  unfold bslab
  refine (fill_of_moved win0_2 (grid0.coords t) _ _ (ValueIdx.ix2 (0 : Fin 1) j) hm).trans ?_
  exact iblk2_apply m c t _ _ rfl

/-- Column `j` of the output block at point `t`, when inside the array, is column 2048·t + `j` of the one function. -/
private theorem oblk_apply (c : Dev nD) (t : Fin cfg0.N) (r : Fin 256) (j : Fin 2048) (hj : 2048 * t.val + j.val < 100000) :
    oblk m c t (ValueIdx.ix2 r j) = out2 m c (ValueIdx.ix2 r (⟨2048 * t.val + j.val, hj⟩ : Fin 100000)) := by
  unfold oblk
  rw [pay_apply]
  show _ = (∑ k : Fin 1024, xarr m c (ValueIdx.ix2 r k) * warr m c (ValueIdx.ix2 (⟨2048 * t.val + j.val, hj⟩ : Fin 100000) k))
      + barr m c (ValueIdx.ix2 (0 : Fin 1) (⟨2048 * t.val + j.val, hj⟩ : Fin 100000))
  rw [bslab_apply m c t j hj]
  refine congrArg (fun s => s + _) (Finset.sum_congr rfl fun k _ => ?_)
  rw [xblk_apply m c t r k, wslab_apply m c t j k hj]

/-- An index of the output array is in point `t`'s block iff each coordinate is in the block's range cut at the
    array's end. -/
private theorem mem_blk3 (t : Fin cfg0.N) (i : S256x100000.Idx) :
    i ∈ ((cfg0.win 3).blk t).view.set ↔ ∀ a : Fin 2, win0_3.index t a * S256x2048.size a ≤ (i a).val
      ∧ (i a).val < win0_3.index t a * S256x2048.size a + win0_3.xsize (grid0.coords t) a := by
  show i ∈ ((View.whole main_call0_v2).slice (win0_3.rect t)).set ↔ _
  rw [View.set_slice_whole, Rect.mem_set_unit]
  exact Iff.rfl

/-- What point `t` writes back is block `t` of that function. -/
theorem flushed_eq (c : Dev nD) (t : Fin cfg0.N) :
    (dats m 0 c).flushed 3 t = ((cfg0.win 3).blk t).view.read (Elt Ideal) (out2 m c) := by
  show win0_3.cut (grid0.coords t) ((dats m 0 c).after 3 t) = _
  rw [after_3]
  funext y
  obtain ⟨-, -, -, -, -, -, e0, e1⟩ := idx_facts t
  obtain ⟨-, -, -, -, x0, x1⟩ := xsize_facts t
  have hy0 : (y 0).val < 256 := by
    have h : (y 0).val < win0_3.xsize (grid0.coords t) (0 : Fin 2) := (y 0).isLt
    rw [x0] at h; exact h
  have hy1 : (y 1).val < min 2048 (100000 - 2048 * t.val) := by
    have h : (y 1).val < win0_3.xsize (grid0.coords t) (1 : Fin 2) := (y 1).isLt
    rw [x1] at h; exact h
  have hj : (y 1).val < 2048 := by omega
  have hlt : 2048 * t.val + (⟨(y 1).val, hj⟩ : Fin 2048).val < 100000 := by show 2048 * t.val + (y 1).val < 100000; omega
  have hx : win0_3.xinj (grid0.coords t) y = ValueIdx.ix2 (⟨(y 0).val, hy0⟩ : Fin 256) (⟨(y 1).val, hj⟩ : Fin 2048) := by
    funext a
    match a with
    | ⟨0, _⟩ => rfl
    | ⟨1, _⟩ => rfl
  have he : ((cfg0.win 3).blk t).view.emb y
      = ValueIdx.ix2 (⟨(y 0).val, hy0⟩ : Fin 256) (⟨2048 * t.val + (⟨(y 1).val, hj⟩ : Fin 2048).val, hlt⟩ : Fin 100000) := by
    funext a
    apply Fin.ext
    match a with
    | ⟨0, _⟩ => show win0_3.index t (0 : Fin 2) * 256 + 1 * (y 0).val = (y 0).val; rw [e0]; omega
    | ⟨1, _⟩ => show win0_3.index t (1 : Fin 2) * 2048 + 1 * (y 1).val = 2048 * t.val + (y 1).val; rw [e1]; omega
  rw [View.read_apply]
  show oblk m c t (win0_3.xinj (grid0.coords t) y) = out2 m c (((cfg0.win 3).blk t).view.emb y)
  exact (congrArg (oblk m c t) hx).trans ((oblk_apply m c t _ _ hlt).trans (congrArg (out2 m c) he).symm)

/-- Every index of the output array lies in some written-back block. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 256 := (i 0).isLt
  have h1 : (i 1).val < 100000 := (i 1).isLt
  obtain ⟨t, ht⟩ : ∃ t : Fin cfg0.N, t.val = (i 1).val / 2048 :=
    ⟨⟨(i 1).val / 2048, lt_of_lt_of_eq (by omega : (i 1).val / 2048 < 49) N_0.symm⟩, rfl⟩
  refine ⟨t, flush0_3 t, ?_⟩
  obtain ⟨-, -, -, -, -, -, e0, e1⟩ := idx_facts t
  obtain ⟨-, -, -, -, x0, x1⟩ := xsize_facts t
  rw [mem_blk3]
  intro a
  match a with
  | ⟨0, _⟩ =>
    show win0_3.index t (0 : Fin 2) * 256 ≤ (i 0).val ∧ (i 0).val < win0_3.index t (0 : Fin 2) * 256 + win0_3.xsize (grid0.coords t) (0 : Fin 2)
    rw [e0, x0]; omega
  | ⟨1, _⟩ =>
    show win0_3.index t (1 : Fin 2) * 2048 ≤ (i 1).val ∧ (i 1).val < win0_3.index t (1 : Fin 2) * 2048 + win0_3.xsize (grid0.coords t) (1 : Fin 2)
    rw [e1, x1, ht]; omega

/-- The output array after the run. -/
theorem final (c : Dev nD) : (dats m 0 c).arrAt 3 cfg0.N = out2 m c :=
  (dats m 0 c).arrAt_eq_of_cover 3 (out2 m c) (fun t _ => flushed_eq m c t) (cover c)

/-- The reshaped activations are the activations read at (r / 8, r % 8, d). -/
theorem xarr_apply (c : Dev nD) (b : Fin 32) (s : Fin 8) (k : Fin 1024) :
    xarr m c (ValueIdx.ix2 (⟨8 * b.val + s.val, by omega⟩ : Fin 256) k)
      = m ((c.tc : Thread nD τ).loc main_arg0) (ValueIdx.ix3 b s k) := by
  show V m c main_call0_v0 _ = _
  rw [xarr_eq m c]
  exact shapeCast_apply _ shapeCasts_S32x8x1024_S256x1024 _ (ValueIdx.ix3 b s k) (by
    rw [Shape.rowMajor_val_three, Shape.rowMajor_val_two]
    show (b.val * 8 + s.val) * 1024 + k.val = (8 * b.val + s.val) * 1024 + k.val
    omega)

/-- The reshaped bias is the bias read at v. -/
theorem barr_apply (c : Dev nD) (v : Fin 100000) :
    barr m c (ValueIdx.ix2 (0 : Fin 1) v) = m ((c.tc : Thread nD τ).loc main_arg2) (ValueIdx.ix1 v) := by
  show V m c main_call0_v1 _ = _
  rw [barr_eq m c]
  exact shapeCast_apply _ shapeCasts_S100000_S1x100000 _ (ValueIdx.ix1 v) (by
    rw [Shape.rowMajor_val_one, Shape.rowMajor_val_two]
    show v.val = 0 * 100000 + v.val
    omega)

/-- The result buffer after the reshape that follows the region: the logits of the three arguments. -/
theorem result_eq (c : Dev nD) :
    Pipeline.afterTail₀ cfgs (dats m) 0 (V0 m) [hostOps1] c main_v0
      = Cert.Spec.logits (m ((c.tc : Thread nD τ).loc main_arg0)) (m ((c.tc : Thread nD τ).loc main_arg1)) (m ((c.tc : Thread nD τ).loc main_arg2)) := by
  have hw : Pipeline.withArrays (cfgs 0).spec c (V0 m c) (fun w => (dats m 0 c).arrAt w (cfgs 0).N) (Proc.devRef .tc main_call0_v2) = out2 m c :=
    (Pipeline.withArrays_arr spec0 launch0.win.arr_inj c _ _ 3).trans (final m c)
  unfold Pipeline.afterTail₀
  show StableHlo.after hostOps1 _ (Proc.devRef .tc main_v0) = _
  after_results
  funext i
  show shapeCast S32x8x100000 (Pipeline.withArrays (cfgs 0).spec c (V0 m c) (fun w => (dats m 0 c).arrAt w (cfgs 0).N) (Proc.devRef .tc main_call0_v2)) shapeCasts_S256x100000_S32x8x100000 i = _
  rw [hw]
  obtain ⟨b, s, v, rfl⟩ : ∃ (b : Fin 32) (s : Fin 8) (v : Fin 100000), i = ValueIdx.ix3 b s v := ⟨i 0, i 1, i 2, ValueIdx.eq_ix3 i⟩
  rw [shapeCast_apply (out2 m c) shapeCasts_S256x100000_S32x8x100000 (ValueIdx.ix3 b s v) (ValueIdx.ix2 (⟨8 * b.val + s.val, by omega⟩ : Fin 256) v) (by
    rw [Shape.rowMajor_val_two, Shape.rowMajor_val_three]
    show (8 * b.val + s.val) * 100000 + v.val = (b.val * 8 + s.val) * 100000 + v.val
    omega)]
  unfold out2 Cert.Spec.logits
  show (∑ k : Fin 1024, xarr m c (ValueIdx.ix2 (⟨8 * b.val + s.val, by omega⟩ : Fin 256) k) * warr m c (ValueIdx.ix2 v k)) + barr m c (ValueIdx.ix2 (0 : Fin 1) v)
    = (∑ k : Fin 1024, arg0 m c (ValueIdx.ix3 b s k) * arg1 m c (ValueIdx.ix2 v k)) + arg2 m c (ValueIdx.ix1 v)
  rw [barr_apply m c v]
  refine congrArg (· + _) (Finset.sum_congr rfl fun k _ => ?_)
  rw [xarr_apply m c b s k]
  show _ * V m c main_arg1 (ValueIdx.ix2 v k) = _
  rw [V_main_arg1 m c]

/-- The idealized kernel's run with its result named: the logits of its arguments, which it leaves
    unchanged. -/
theorem run : θ_run defs (onTc (τ := τ) (main (F := Ideal))) ⟨m, fun _ => 0, ρ⟩ (fun r => ∀ c : Dev nD,
      r.2.mem ((c.tc : Thread nD τ).loc main_v0)
        = Cert.Spec.logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference computes the logits function: its contraction of the activations' last axis with the
  weights' last axis, read at an output index (b, t, v), is the sum over the 1024 features of
  x[b, t, d] · W[v, d]; its two broadcasts of the bias read entry v; its final add joins them.
-/
import proofs.«136971_g35098472743185_cont_8to1_b_329_2_alg».proof.Defs
import proofs.«136971_g35098472743185_cont_8to1_b_329_2_alg».proof.Proof.Gen.ReferenceIdeal
import proofs.«136971_g35098472743185_cont_8to1_b_329_2_alg».proof.Proof.Gen.ReferenceIdeal.Run
import proofs.«136971_g35098472743185_cont_8to1_b_329_2_alg».proof.Proof.Gen.ReferenceIdeal.Read
import proofs.«136971_g35098472743185_cont_8to1_b_329_2_alg».proof.Proof.Spec

noncomputable section

namespace Cert.RefValue

open Idealize.ShloMosaic Cert.ReferenceIdeal Cert.ReferenceIdeal.Read

/-- The index the contraction reads the activations at is the output's leading two coordinates with the
    feature. -/
theorem lidx_eq (i : S32x8x100000.Idx) (k : Fin 1024) : lidx_main_v0 i k = ValueIdx.ix3 (i 0) (i 1) k :=
  funext fun a => Fin.ext (by match a with | ⟨0, _⟩ => rfl | ⟨1, _⟩ => rfl | ⟨2, _⟩ => rfl)

/-- The index it reads the weights at is the output's vocabulary coordinate with the feature. -/
theorem ridx_eq (i : S32x8x100000.Idx) (k : Fin 1024) : ridx_main_v0 i k = ValueIdx.ix2 (i 2) k :=
  funext fun a => Fin.ext (by match a with | ⟨0, _⟩ => rfl | ⟨1, _⟩ => rfl)

/-- The two broadcasts of the bias read its entry at the output's vocabulary coordinate. -/
theorem bidx_eq (i : S32x8x100000.Idx) : idx_main_v1 (idx_main_v2 i) = ValueIdx.ix1 (i 2) :=
  funext fun a => Fin.ext (by match a with | ⟨0, _⟩ => rfl)

/-- The reference's result, as a function of its three arguments, is the logits function. -/
theorem ref_eq (x0 : FVec Ideal S32x8x1024 .f32) (x1 : FVec Ideal S100000x1024 .f32) (x2 : FVec Ideal S100000 .f32) :
    val_main_v3 (F := Ideal) x0 x1 x2 = Cert.Spec.logits x0 x1 x2 := by
  funext i
  rw [val_main_v3_apply, val_main_v0_apply, val_main_v2_apply, val_main_v1_apply]
  simp only [lidx_eq, ridx_eq, bidx_eq, Cert.Spec.logits]
  rfl

end Cert.RefValue

end
-- ==== Proof.lean ====
/-
  The vocabulary head: logits[b, t, v] = (Σ_d x[b, t, d] · W[v, d]) + bias[v].

  The kernel computes the logits in 49 slabs of 2048 vocabulary rows; the reference computes them in one
  contraction and a broadcast add. Over the extended reals both are the same function of the three
  arguments (the specification, `Cert.Spec.logits`): the narrowing of the operands to bf16 before the
  matrix unit is the identity there, and each side's sum runs over the same 1024 features. The last slab
  reaches 352 rows past the end of the vocabulary; what the fetch leaves there reaches only output
  columns the write-back cuts off.

  The five claims: the word-level kernel's frame (nothing said of its output), the idealized kernel's
  frame, the reference's frame (its run with the result dropped), the idealization's ledger (empty), and
  the equality of the two idealized programs' results — both runs end with the logits of the shared
  arguments.
-/
import proofs.«136971_g35098472743185_cont_8to1_b_329_2_alg».proof.Defs
import proofs.«136971_g35098472743185_cont_8to1_b_329_2_alg».proof.Proof.Gen.Kernel
import proofs.«136971_g35098472743185_cont_8to1_b_329_2_alg».proof.Proof.Gen.KernelIdeal
import proofs.«136971_g35098472743185_cont_8to1_b_329_2_alg».proof.Proof.Gen.ReferenceIdeal
import proofs.«136971_g35098472743185_cont_8to1_b_329_2_alg».proof.Proof.Gen.Pre_finite_inputs
import proofs.«136971_g35098472743185_cont_8to1_b_329_2_alg».proof.Proof.KernelFrame
import proofs.«136971_g35098472743185_cont_8to1_b_329_2_alg».proof.Proof.KernelIdealValue
import proofs.«136971_g35098472743185_cont_8to1_b_329_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame (F := Bits) m ρ

theorem frame_kernel_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the idealized kernel and the idealized reference both end
    with the logits of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
